-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_v13 : IVec S_ 1) (main_v15 : IVec S2x640000 1) (main_c_5 : IVec S_ 1) : IVec S_ 1 :=
  let main_v16 : IVec S_ 1 := (fun x v => Host.reduce IntOp.andi x v reducesTo_S2x640000_S_d0_1 h_S_) main_v15 main_c_5
  let main_v17 : IVec S_ 1 := andi main_v13 main_v16
  let main_c_6 : IVec S_ 32 := constantI S_ 32 100000#32
  let main_v18 : IVec S2x640000 32 := broadcastInDim S2x640000 ![] bcast_S_S2x640000 main_c_6
  let main_v19 : IVec S2x640000 1 := cmpi .slt main_arg1 main_v18
  let main_c_7 : IVec S_ 1 := constantI S_ 1 1#1
  let main_v20 : IVec S_ 1 := (fun x v => Host.reduce IntOp.andi x v reducesTo_S2x640000_S_d0_1 h_S_) main_v19 main_c_7
  let main_v21 : IVec S_ 1 := andi main_v17 main_v20
  main_v21

def fn {F : FTy → Type} [FloatOps F] (main_arg0 : FVec F S100000x128 .f32) (main_arg1 : IVec S2x640000 32) (main_arg2 : FVec F S256x1 .f32) (main_arg3 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S2x640000 32 := broadcastInDim S2x640000 ![] bcast_S_S2x640000 main_c_4
  let main_v15 : IVec S2x640000 1 := cmpi .sge main_arg1 main_v14
  let main_c_5 : IVec S_ 1 := constantI S_ 1 1#1
  fn_part1 (F := F) main_arg1 main_v13 main_v15 main_c_5
-- ==== Kernel.lean ====
abbrev S100000x128 : Shape := ⟨2, ![100000, 128]⟩
abbrev S2x640000 : Shape := ⟨2, ![2, 640000]⟩
abbrev S256x1 : Shape := ⟨2, ![256, 1]⟩
abbrev S1 : Shape := ⟨1, ![1]⟩
abbrev S128x1 : Shape := ⟨2, ![128, 1]⟩
abbrev S128 : Shape := ⟨1, ![128]⟩
abbrev S1x128 : Shape := ⟨2, ![1, 128]⟩
abbrev S100000x2 : Shape := ⟨2, ![100000, 2]⟩
abbrev S10000x128 : Shape := ⟨2, ![10000, 128]⟩
abbrev S10000x2 : Shape := ⟨2, ![10000, 2]⟩
abbrev S10000 : Shape := ⟨1, ![10000]⟩
abbrev S10000x1 : Shape := ⟨2, ![10000, 1]⟩
abbrev S100000x1 : Shape := ⟨2, ![100000, 1]⟩
abbrev S100000 : Shape := ⟨1, ![100000]⟩
abbrev S1x640000 : Shape := ⟨2, ![1, 640000]⟩
abbrev S640000 : Shape := ⟨1, ![640000]⟩
abbrev S_ : Shape := ⟨0, ![]⟩
abbrev S200000 : Shape := ⟨1, ![200000]⟩
abbrev S1280000 : Shape := ⟨1, ![1280000]⟩
abbrev S1280000x1 : Shape := ⟨2, ![1280000, 1]⟩
abbrev S640000x1 : Shape := ⟨2, ![640000, 1]⟩

abbrev nBuf : Space → Nat
  | .hbm => 64
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x1, .f32⟩
  | .hbm, ⟨3, _⟩ => ⟨S1, .f32⟩
  | .hbm, ⟨4, _⟩ => ⟨S128x1, .f32⟩
  | .hbm, ⟨5, _⟩ => ⟨S128, .f32⟩
  | .hbm, ⟨6, _⟩ => ⟨S1x128, .f32⟩
  | .hbm, ⟨7, _⟩ => ⟨S128x1, .f32⟩
  | .hbm, ⟨8, _⟩ => ⟨S128, .f32⟩
  | .hbm, ⟨9, _⟩ => ⟨S1x128, .f32⟩
  | .hbm, ⟨10, _⟩ => ⟨S100000x2, .f32⟩
  | .hbm, ⟨11, _⟩ => ⟨S100000x1, .f32⟩
  | .hbm, ⟨12, _⟩ => ⟨S100000, .f32⟩
  | .hbm, ⟨13, _⟩ => ⟨S100000x1, .f32⟩
  | .hbm, ⟨14, _⟩ => ⟨S100000, .f32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S200000, .f32⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S1280000, .i32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000, .f32⟩
  | .hbm, ⟨49, _⟩ => ⟨S640000, .f32⟩
  | .hbm, ⟨50, _⟩ => ⟨S640000, .f32⟩
  | .hbm, ⟨51, _⟩ => ⟨S640000, .f32⟩
  | .hbm, ⟨52, _⟩ => ⟨S_, .f32⟩
  | .hbm, ⟨53, _⟩ => ⟨S640000, .f32⟩
  | .hbm, ⟨54, _⟩ => ⟨S640000, .f32⟩
  | .hbm, ⟨55, _⟩ => ⟨S640000, .f32⟩
  | .hbm, ⟨56, _⟩ => ⟨S640000, .f32⟩
  | .hbm, ⟨57, _⟩ => ⟨S_, .f32⟩
  | .hbm, ⟨58, _⟩ => ⟨S640000, .f32⟩
  | .hbm, ⟨59, _⟩ => ⟨S640000, .f32⟩
  | .hbm, ⟨60, _⟩ => ⟨S_, .f32⟩
  | .hbm, ⟨61, _⟩ => ⟨S640000, .f32⟩
  | .hbm, ⟨62, _⟩ => ⟨S640000, .f32⟩
  | .hbm, ⟨63, _⟩ => ⟨S640000x1, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S10000x2, .f32⟩
  | .local _ .vmem, ⟨5, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x1_S128x1_0_0 : S256x1.Slices ![0, 0] S128x1
  shapeCasts_S128x1_S128 : S128x1.ShapeCasts S128
  shapeCasts_S128_S1x128 : S128.ShapeCasts S1x128
  slices_S256x1_S128x1_128_0 : S256x1.Slices ![128, 0] S128x1
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  concatenates_S10000x1_S10000x1_S10000x2_d1 : Shape.Concatenates [S10000x1, S10000x1] S10000x2 1
  inb_S10000x2_S10000x2_0_0 : ∀ a, (![0, 0] : Fin 2 → Nat) a + S10000x2.size a ≤ S10000x2.size a
  h_S10000x2 : 0 < S10000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  slices_S2x640000_S1x640000_1_0 : S2x640000.Slices ![1, 0] S1x640000
  concatenates_S100000_S100000_S200000_d0 : Shape.Concatenates [S100000, S100000] S200000 0
  concatenates_S640000_S640000_S1280000_d0 : Shape.Concatenates [S640000, S640000] S1280000 0
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S1280000_S640000_0 : S1280000.Slices ![0] S640000
  slices_S1280000_S640000_640000 : S1280000.Slices ![640000] S640000
  shapeCasts_S1_S_ : S1.ShapeCasts S_
  shapeCasts_S640000_S640000x1 : S640000.ShapeCasts S640000x1
  gather_S200000_S1280000x1_S1280000_n_0_n_n_0_1_1_wf : GatherDims.WF S200000 S1280000x1 S1280000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S100000x2.size a
  hwx0_3 : ∀ i : grid0.Coords, EltTy.bits .f32 = 32 ∨ (Rect.block (s := S100000x2) S10000x2.size (cc0_transform_3 i) (hinb0_3 i)).WholeWords (EltTy.packing .f32)

variable [Facts₀]

def gather_S200000_S1280000x1_S1280000_n_0_n_n_0_1_1 : GatherDims S200000 S1280000x1 S1280000 where
  offsetDims := []
  collapsedSliceDims := [0]
  operandBatchingDims := []
  startIndicesBatchingDims := []
  startIndexMap := [0]
  indexVectorDim := 1
  sliceSizes := ![1]
  wf := gather_S200000_S1280000x1_S1280000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x1, .f32⟩
  | .hbm, ⟨3, _⟩ => ⟨S1, .f32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S128x1, .f32⟩
  | .hbm, ⟨27, _⟩ => ⟨S640000x1, .f32⟩
  | .hbm, ⟨28, _⟩ => ⟨S128x1, .f32⟩
  | .hbm, ⟨29, _⟩ => ⟨S640000x1, .f32⟩
  | .hbm, ⟨30, _⟩ => ⟨S640000x1, .f32⟩
  | .hbm, ⟨31, _⟩ => ⟨S1x1, .f32⟩
  | .hbm, ⟨32, _⟩ => ⟨S640000x1, .f32⟩
  | .hbm, ⟨33, _⟩ => ⟨S640000x1, .f32⟩
  | .hbm, ⟨34, _⟩ => ⟨S640000x1, .f32⟩
  | .hbm, ⟨35, _⟩ => ⟨S640000x1, .f32⟩
  | .hbm, ⟨36, _⟩ => ⟨S_, .f32⟩
  | .hbm, ⟨37, _⟩ => ⟨S640000x1, .f32⟩
  | .hbm, ⟨38, _⟩ => ⟨S640000x1, .f32⟩
  | .hbm, ⟨39, _⟩ => ⟨S_, .f32⟩
  | .hbm, ⟨40, _⟩ => ⟨S640000x1, .f32⟩
  | .hbm, ⟨41, _⟩ => ⟨S640000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  gather_S100000x128_S640000x1_S640000x128_1_0_n_n_0_1_1128_wf : GatherDims.WF S100000x128 S640000x1 S640000x128 [1] [0] [] [0] [] 1 ![1, 128]
  dot_S640000x128_S128x1_S640000x1_1_0_0_1_n_n_wf : DotDims.WF S640000x128 S128x1 S640000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.Spec.lean ====
/-
  The mathematics both programs compute, stated once over literal shapes and importing no program.

  A graph has 100000 nodes with 128 features each and 640000 edges; `edge_index` holds, for every edge, the id of its
  source node (row 0) and of its target node (row 1). The weight `W : [256, 1]` is two stacked columns of 128: rows
  0–127 meet the source node's features, rows 128–255 the target's. An edge's score is

      squash ((x[src] · W[0:128] + x[dst] · W[128:256]) + b)      squash z = 1 / (1 + exp (−z))

  on the extended reals, each dot product a sum of 128 products, the additions grouped as written.

  A word is a NODE ID when, read signed, it lies in [0, 100000). On node ids the two ways the programs normalise an
  index agree: adding 100000 to a negative index (never taken), and clamping into [0, 99999] (the identity).
-/
import Idealize.ShloMosaic.PureOps.Ideal
import Idealize.ShloMosaic.Lib.ValueIdx

noncomputable section

open scoped BigOperators

namespace Cert.EdgeScore

open Idealize.ShloMosaic Idealize.ShloMosaic.ValueIdx

/-! ## Shapes -/

abbrev Nodes : Shape := ⟨2, ![100000, 128]⟩
abbrev Edges : Shape := ⟨2, ![2, 640000]⟩
abbrev Weight : Shape := ⟨2, ![256, 1]⟩
abbrev Bias : Shape := ⟨1, ![1]⟩
abbrev Halves : Shape := ⟨2, ![100000, 2]⟩
abbrev Scores : Shape := ⟨2, ![640000, 1]⟩

/-! ## Node ids -/

/-- The word, read signed, is a node id: in [0, 100000). -/
def IsNode (e : BitVec 32) : Prop := 0 ≤ e.toInt ∧ e.toInt < 100000

/-- The node a word names: its signed value clamped into [0, 99999] (on a node id, the value itself). -/
def node (e : BitVec 32) : Fin 100000 := ⟨min e.toInt.toNat 99999, by omega⟩

theorem node_val {e : BitVec 32} (h : IsNode e) : (node e).val = e.toInt.toNat := by
  obtain ⟨h0, h1⟩ := h
  show min e.toInt.toNat 99999 = e.toInt.toNat
  omega

/-- A node id's unsigned reading is its signed one. -/
theorem IsNode.toNat_lt {e : BitVec 32} (h : IsNode e) : e.toNat < 100000 := by
  obtain ⟨h0, h1⟩ := h
  rw [BitVec.toInt_eq_toNat_cond] at h0 h1
  split at h0 <;> omega

theorem IsNode.toInt_eq {e : BitVec 32} (h : IsNode e) : e.toInt = e.toNat := by
  have := h.toNat_lt
  rw [BitVec.toInt_eq_toNat_cond, if_pos (by omega)]

/-! ## The score -/

/-- Half `h` of an edge's logit at node `n`: the node's 128 features against rows `128 h … 128 h + 127` of the weight. -/
def half (x : FVec Ideal Nodes .f32) (w : FVec Ideal Weight .f32) (n : Fin 100000) (h : Fin 2) : EReal :=
  ∑ k : Fin 128, x (ix2 n k) * w (ix2 (⟨128 * h.val + k.val, by have := h.isLt; have := k.isLt; omega⟩ : Fin 256) (0 : Fin 1))

/-- Both halves of every node, as one [100000, 2] table: column 0 for a node met as a source, column 1 as a target. -/
def halves (x : FVec Ideal Nodes .f32) (w : FVec Ideal Weight .f32) : FVec Ideal Halves .f32 :=
  fun y => half x w (y 0) (y 1)

/-- `1 / (1 + exp (−z))`, in the operations both programs spell it with (the literal is the word of 1.0). -/
def squash (z : EReal) : EReal :=
  FloatOps.hostDivf (F := Ideal) (φ := .f32) (FloatOps.ofBits .f32 0x3F800000#32)
    (FloatOps.addf (F := Ideal) (φ := .f32) (FloatOps.ofBits .f32 0x3F800000#32)
      (FloatOps.hostUnary (F := Ideal) (φ := .f32) .exp (FloatOps.hostNegf (F := Ideal) (φ := .f32) z)))

/-- The score of every edge. -/
def score (x : FVec Ideal Nodes .f32) (e : IVec Edges 32) (w : FVec Ideal Weight .f32) (b : FVec Ideal Bias .f32) :
    FVec Ideal Scores .f32 := fun i =>
  squash (FloatOps.addf (F := Ideal) (φ := .f32)
    (FloatOps.addf (F := Ideal) (φ := .f32) (half x w (node (e (ix2 (0 : Fin 2) (i 0)))) 0) (half x w (node (e (ix2 (1 : Fin 2) (i 0)))) 1))
    (b (ix1 (0 : Fin 1))))

/-! ## Words: what the programs' index arithmetic does to a node id -/

/-- numpy's wrap of a negative index (`i < 0 ? i + n : i`) leaves a non-negative word alone. -/
theorem wrap_eq {e n : BitVec 32} (h0 : 0 ≤ e.toInt) :
    Scalar.select (IntOp.cmpi .slt e 0#32) (IntOp.addi e n) e = e := by
  have z : (0#32 : BitVec 32).toInt = 0 := by decide
  have hs : e.slt 0#32 = false := by
    simp only [BitVec.slt, z, decide_eq_false_iff_not]
    omega
  have hc : IntOp.cmpi .slt e 0#32 = 0#1 := by
    show BitVec.ofBool (e.slt 0#32) = 0#1
    rw [hs]
    rfl
  rw [hc]
  exact select_zero _ _

/-- The clamp into [0, 99999], as `min 99999 (max 0 e)`, leaves a node id alone. -/
theorem clip_eq {e : BitVec 32} (h : IsNode e) : IntOp.minsi 99999#32 (IntOp.maxsi 0#32 e) = e := by
  obtain ⟨h0, h1⟩ := h
  have z : (0#32 : BitVec 32).toInt = 0 := by decide
  have t : (99999#32 : BitVec 32).toInt = 99999 := by decide
  have hmax : IntOp.maxsi 0#32 e = e := by
    unfold IntOp.maxsi
    split
    · rename_i hc
      simp only [BitVec.slt, decide_eq_true_eq, z] at hc
      have he : e.toInt = 0 := by omega
      exact BitVec.eq_of_toInt_eq (by rw [z, he])
    · rfl
  rw [hmax]
  unfold IntOp.minsi
  split
  · rename_i hc
    simp only [BitVec.slt, decide_eq_true_eq, t] at hc
    omega
  · rfl

/-- A node id moved into the second half of a 200000-entry table: no overflow, still non-negative. -/
theorem shift_toInt {e : BitVec 32} (h : IsNode e) : (IntOp.addi e 100000#32).toInt = e.toInt + 100000 := by
  have hn := h.toNat_lt
  have he := h.toInt_eq
  unfold IntOp.addi
  rw [BitVec.toInt_eq_toNat_cond, BitVec.toNat_add]
  have : (100000#32 : BitVec 32).toNat = 100000 := by decide
  rw [this, he]
  have hm : (e.toNat + 100000) % 2 ^ 32 = e.toNat + 100000 := Nat.mod_eq_of_lt (by omega)
  rw [hm, if_pos (by omega)]
  push_cast
  rfl

end Cert.EdgeScore

end
-- ==== Proof.PreRange.lean ====
/-
  The precondition says, beside the finiteness of the float inputs, that every entry of `edge_index` is a node id:
  its last two conjuncts are `all (edge_index ≥ 0)` and `all (edge_index < 100000)`, each an and-reduction over the
  whole [2, 640000] array of a signed comparison with a splat constant. A reduction by `and` that ends at 1 had a 1 at
  every index, and the comparison's bit at an index is the comparison of the word there.
-/
import proofs.«431094_j541165879643_3_alg».proof.Pre_finite_inputs
import proofs.«431094_j541165879643_3_alg».proof.Proof.Spec
import Idealize.ShloMosaic.Lib.ReduceAll

noncomputable section

namespace Cert.EdgeScore

open Idealize.ShloMosaic Idealize.ShloMosaic.ValueIdx

theorem bit_eq_one_iff (b : Bool) : BitVec.ofBool b = 1#1 ↔ b = true := by cases b <;> decide

/-- The two comparison bits of a word say it is a node id. -/
theorem isNode_of_bits {e : BitVec 32} (hge : IntOp.cmpi .sge e 0#32 = 1#1) (hlt : IntOp.cmpi .slt e 100000#32 = 1#1) :
    IsNode e := by
  unfold IntOp.cmpi at hge hlt
  rw [bit_eq_one_iff] at hge hlt
  simp only [BitVec.slt, BitVec.sle, decide_eq_true_eq] at hge hlt
  have z : (0#32 : BitVec 32).toInt = 0 := by decide
  have t : (100000#32 : BitVec 32).toInt = 100000 := by decide
  rw [z] at hge
  rw [t] at hlt
  exact ⟨hge, hlt⟩

instance : Subsingleton Cert.Pre_finite_inputs.S_.Idx := ⟨fun a b => funext fun d => d.elim0⟩

variable [Cert.Pre_finite_inputs.Facts]

/-- THE PRECONDITION DECODED: every entry of the index array is a node id. -/
theorem isNode_of_pre {F : FTy → Type} [FloatOps F]
    (x0 : FVec F Cert.Pre_finite_inputs.S100000x128 .f32) (x1 : IVec Cert.Pre_finite_inputs.S2x640000 32)
    (x2 : FVec F Cert.Pre_finite_inputs.S256x1 .f32) (x3 : FVec F Cert.Pre_finite_inputs.S1 .f32)
    (h : Cert.Pre_finite_inputs.fn (F := F) x0 x1 x2 x3 = fun _ => 1#1) (j : Cert.Pre_finite_inputs.S2x640000.Idx) :
    IsNode (x1 j) := by
  have e := congrFun h ix0
  unfold Cert.Pre_finite_inputs.fn at e
  dsimp only at e
  unfold Cert.Pre_finite_inputs.fn_part1 at e
  dsimp only at e
  obtain ⟨e17, e20⟩ := IntOp.andi_eq_one.1 e
  obtain ⟨-, e16⟩ := IntOp.andi_eq_one.1 e17
  exact isNode_of_bits (Host.reduce_andi_all _ _ _ _ _ e16 j) (Host.reduce_andi_all _ _ _ _ _ e20 j)

end Cert.EdgeScore

end
-- ==== Proof.Region.lean ====
/-
  What the region leaves in its result array: at row `n`, column `h`, node `n`'s 128 features against rows
  `128 h … 128 h + 127` of the weight — `EdgeScore.halves`.

  The region has ten points; point `t` is handed rows `10000 t … 10000 t + 9999` of the feature table as a
  [10000, 128] block, and the two weight rows whole ([1, 128] each: rows 0–127 and 128–255 of the weight's one
  column, sliced and reshaped by the host before the region). Its body multiplies the block by each weight row
  broadcast down the rows, sums along the 128 lanes, and stores the two sums side by side as a [10000, 2] block, which
  is written back as rows `10000 t …` of the result. The ten blocks tile the result.
-/
import proofs.«431094_j541165879643_3_alg».proof.Proof.Gen.KernelIdeal.Frame
import proofs.«431094_j541165879643_3_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.Region

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.EdgeScore

/-! ## The body's arithmetic -/

/-- One column of what the body stores: the block times a weight row broadcast down the rows, summed along the lanes. -/
def column (x : FVec Ideal S10000x128 .f32) (w : FVec Ideal S1x128 .f32) : FVec Ideal S10000x1 .f32 :=
  shapeCast S10000x1
    (multiReduction .add [1] S10000
      (mulf x (broadcastTo S10000x128 (shapeCast S1x128 w shapeCasts_S1x128_S1x128) broadcasts_S1x128_S10000x128))
      0x00000000#32 reduces_S10000x128_S10000 (.inl rfl) rfl)
    shapeCasts_S10000_S10000x1

/-- The body's one payload is the two columns side by side. -/
theorem pay_eq (x0 : FVec Ideal S10000x128 .f32) (x1 x2 : FVec Ideal S1x128 .f32) :
    k0_pay1 (F := Ideal) x0 x1 x2
      = concatenate S10000x2 1 [⟨S10000x1, column x0 x1⟩, ⟨S10000x1, column x0 x2⟩] concatenates_S10000x1_S10000x1_S10000x2_d1 :=
  rfl

/-- Row `p` of the block with lane `k` put back: the index the lane sum ranges over. -/
theorem lift_row (p : Fin 10000) (k : Fin 128) :
    reduces_S10000x128_S10000.lift (ix1 p) k = ix2 p k :=
  funext fun a => Fin.ext (by
    match a with
    | ⟨0, _⟩ => rfl
    | ⟨1, _⟩ => rfl)

/-- A column at row `p`: the sum over the 128 lanes of the block's entry times the weight row's. -/
theorem column_apply (x : FVec Ideal S10000x128 .f32) (w : FVec Ideal S1x128 .f32) (p : Fin 10000) :
    column x w (ix2 p (0 : Fin 1)) = ∑ k : Fin 128, x (ix2 p k) * w (ix2 (0 : Fin 1) k) := by
  unfold column
  refine (shapeCast_apply _ shapeCasts_S10000_S10000x1 (ix2 p (0 : Fin 1)) (ix1 p) ?_).trans ?_
  · rw [Shape.rowMajor_val_one, Shape.rowMajor_val_two]
    show p.val = p.val * 1 + 0
    omega
  refine (Ideal.multiReduction_add_single _ 0x00000000#32 reduces_S10000x128_S10000 (.inl rfl) rfl (ix1 p)).trans ?_
  show ∑ k : Fin 128, _ = _
  refine Finset.sum_congr rfl fun k _ => ?_
  rw [lift_row, mulf_apply]
  congr 1
  refine (broadcastTo_apply _ broadcasts_S1x128_S10000x128 (ix2 p k) (ix2 (0 : Fin 1) k) ?_).trans ?_
  · intro a
    match a with
    | ⟨0, _⟩ => show 0 = if (1 : Nat) = 1 then 0 else _; rw [if_pos rfl]
    | ⟨1, _⟩ => show k.val = if (128 : Nat) = 1 then 0 else k.val; rw [if_neg (by decide)]
  rw [shapeCast_self]

/-- The payload at row `p`, column 0: the block against the first weight row. -/
theorem pay_src (x0 : FVec Ideal S10000x128 .f32) (x1 x2 : FVec Ideal S1x128 .f32) (p : Fin 10000) :
    k0_pay1 (F := Ideal) x0 x1 x2 (ix2 p (0 : Fin 2)) = ∑ k : Fin 128, x0 (ix2 p k) * x1 (ix2 (0 : Fin 1) k) := by
  rw [pay_eq]
  refine (concatenate_pair_apply_left (t := S10000x2) (s₁ := S10000x1) (s₂ := S10000x1) (1 : Fin 2) (column x0 x1) (column x0 x2)
    concatenates_S10000x1_S10000x1_S10000x2_d1 (ix2 p (0 : Fin 2) : S10000x2.Idx) rfl
    (ix2 p (0 : Fin 1) : S10000x1.Idx) ?_).trans (column_apply x0 x1 p)
  intro b
  match b with
  | ⟨0, _⟩ => rfl
  | ⟨1, _⟩ => rfl

/-- The payload at row `p`, column 1: the block against the second weight row. -/
theorem pay_dst (x0 : FVec Ideal S10000x128 .f32) (x1 x2 : FVec Ideal S1x128 .f32) (p : Fin 10000) :
    k0_pay1 (F := Ideal) x0 x1 x2 (ix2 p (1 : Fin 2)) = ∑ k : Fin 128, x0 (ix2 p k) * x2 (ix2 (0 : Fin 1) k) := by
  rw [pay_eq]
  refine (concatenate_pair_apply_right (t := S10000x2) (s₁ := S10000x1) (s₂ := S10000x1) (1 : Fin 2) (column x0 x1) (column x0 x2)
    concatenates_S10000x1_S10000x1_S10000x2_d1 (ix2 p (1 : Fin 2) : S10000x2.Idx) rfl rfl
    (ix2 p (0 : Fin 1) : S10000x1.Idx) ?_ ?_).trans (column_apply x0 x2 p)
  · intro b hb
    match b with
    | ⟨0, _⟩ => rfl
    | ⟨1, _⟩ => exact absurd rfl hb
  · rfl

/-! ## The blocks a point is handed -/

variable (m : (ℓ : Loc nD τ sig) → Buf (Elt Ideal) ℓ)

/-- The printed index maps over the grid: the feature window and the result window move one block down per point, the
    two weight windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the feature table, and of the two weight rows, at their literal types. -/
abbrev feat (c : Dev nD) (t : Fin cfg0.N) : FVec Ideal S10000x128 .f32 := iblk m c 0 t
abbrev wsrc (c : Dev nD) (t : Fin cfg0.N) : FVec Ideal S1x128 .f32 := iblk m c 1 t
abbrev wdst (c : Dev nD) (t : Fin cfg0.N) : FVec Ideal S1x128 .f32 := iblk m c 2 t

/-- The feature block at (p, k) is the table at row `10000 t + p`, lane `k`. -/
theorem feat_apply (c : Dev nD) (t : Fin cfg0.N) (p : Fin 10000) (k : Fin 128) (n : Fin 100000) (hn : n.val = 10000 * t.val + p.val) :
    feat m c t (ix2 p k) = (m ((c : Thread nD τ).loc main_arg0) : S100000x128.Idx → EReal) (ix2 n k) := by
  obtain ⟨e0, e1, -⟩ := idx_facts t
  show iblk m c 0 t (ix2 p k) = _
  unfold iblk
  rw [View.read_apply]
  show V m c main_arg0 _ = _
  rw [V_main_arg0]
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The first weight row as the host prepared it: rows 0–127 of the weight's column, as a [1, 128] row. -/
theorem wrow_src (c : Dev nD) :
    (V m c main_v2 : S1x128.Idx → EReal)
      = shapeCast S1x128 (shapeCast S128 (extractStridedSlice S128x1 ![0, 0] (m ((c : Thread nD τ).loc main_arg2)) slices_S256x1_S128x1_0_0)
          shapeCasts_S128x1_S128) shapeCasts_S128_S1x128 := by
  show StableHlo.after hostOps0 (fun b => m (c, b)) (Proc.devRef .tc main_v2) = _
  after_results
  rfl

/-- The second: rows 128–255. -/
theorem wrow_dst (c : Dev nD) :
    (V m c main_v5 : S1x128.Idx → EReal)
      = shapeCast S1x128 (shapeCast S128 (extractStridedSlice S128x1 ![128, 0] (m ((c : Thread nD τ).loc main_arg2)) slices_S256x1_S128x1_128_0)
          shapeCasts_S128x1_S128) shapeCasts_S128_S1x128 := by
  show StableHlo.after hostOps0 (fun b => m (c, b)) (Proc.devRef .tc main_v5) = _
  after_results
  rfl

/-- A [128, 1] column sliced from row `o` of a [256, 1] column and laid as a [1, 128] row, read at lane `k`. -/
theorem row_of_column (W : S256x1.Idx → EReal) (o : Nat) (ho : o + 128 ≤ 256) (hs : S256x1.Slices ![o, 0] S128x1) (k : Fin 128) :
    shapeCast S1x128 (shapeCast S128 (extractStridedSlice S128x1 ![o, 0] W hs) shapeCasts_S128x1_S128) shapeCasts_S128_S1x128
        (ix2 (0 : Fin 1) k)
      = W (ix2 (⟨o + k.val, by have := k.isLt; omega⟩ : Fin 256) (0 : Fin 1)) := by
  refine (shapeCast_apply _ shapeCasts_S128_S1x128 (ix2 (0 : Fin 1) k) (ix1 k) ?_).trans ?_
  · rw [Shape.rowMajor_val_one, Shape.rowMajor_val_two]
    show k.val = 0 * 128 + k.val
    omega
  refine (shapeCast_apply _ shapeCasts_S128x1_S128 (ix1 k) (ix2 k (0 : Fin 1)) ?_).trans ?_
  · rw [Shape.rowMajor_val_one, Shape.rowMajor_val_two]
    show k.val * 1 + 0 = k.val
    omega
  refine extractStridedSlice_apply _ W hs (ix2 k (0 : Fin 1)) _ fun a => ?_
  match a with
  | ⟨0, _⟩ => rfl
  | ⟨1, _⟩ => rfl

/-- The first weight block at lane `k` is the weight at row `k`. -/
theorem wsrc_apply (c : Dev nD) (t : Fin cfg0.N) (k : Fin 128) :
    wsrc m c t (ix2 (0 : Fin 1) k)
      = (m ((c : Thread nD τ).loc main_arg2) : S256x1.Idx → EReal) (ix2 (⟨0 + k.val, by have := k.isLt; omega⟩ : Fin 256) (0 : Fin 1)) := by
  obtain ⟨-, -, e0, e1, -⟩ := idx_facts t
  show iblk m c 1 t (ix2 (0 : Fin 1) k) = _
  unfold iblk
  rw [View.read_apply]
  show V m c main_v2 _ = _
  rw [wrow_src]
  refine Eq.trans (congrArg _ ?_) (row_of_column _ 0 (by omega) slices_S256x1_S128x1_0_0 k)
  funext a
  apply Fin.ext
  match a with
  | ⟨0, _⟩ => show win0_1.index t (0 : Fin 2) * 1 + 1 * 0 = 0; rw [e0]
  | ⟨1, _⟩ => show win0_1.index t (1 : Fin 2) * 128 + 1 * k.val = k.val; rw [e1]; omega

/-- The second at lane `k`: the weight at row `128 + k`. -/
theorem wdst_apply (c : Dev nD) (t : Fin cfg0.N) (k : Fin 128) :
    wdst m c t (ix2 (0 : Fin 1) k)
      = (m ((c : Thread nD τ).loc main_arg2) : S256x1.Idx → EReal) (ix2 (⟨128 + k.val, by have := k.isLt; omega⟩ : Fin 256) (0 : Fin 1)) := by
  obtain ⟨-, -, -, -, e0, e1, -⟩ := idx_facts t
  show iblk m c 2 t (ix2 (0 : Fin 1) k) = _
  unfold iblk
  rw [View.read_apply]
  show V m c main_v5 _ = _
  rw [wrow_dst]
  refine Eq.trans (congrArg _ ?_) (row_of_column _ 128 (by omega) slices_S256x1_S128x1_128_0 k)
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

/-! ## What a point writes back, and the array after the run -/

theorem hz : (![0, 0] : Fin 2 → Nat) = fun _ => 0 := funext fun a => by fin_cases a <;> rfl

/-- The result the region computes, as one function of the arguments. -/
abbrev result (c : Dev nD) : S100000x2.Idx → EReal :=
  halves (m ((c : Thread nD τ).loc main_arg0)) (m ((c : Thread nD τ).loc main_arg2))

/-- WHAT POINT `t` WRITES BACK is rows `10000 t …` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S10000x128) hz, View.ld_unit_zero (S := S1x128) hz]
  obtain ⟨-, -, -, -, -, -, e0, e1⟩ := idx_facts t
  funext j
  obtain ⟨p, h, rfl⟩ : ∃ (p : Fin 10000) (h : Fin 2), j = ix2 p h := ⟨j 0, j 1, eq_ix2 j⟩
  have ht : t.val < 10 := by
    have hlt := t.isLt
    have hN : cfg0.N = 10 := N_0
    omega
  have hemb : ((cfg0.win 3).blk t).view.emb (ix2 p h)
      = (ix2 (⟨10000 * t.val + p.val, by have := p.isLt; omega⟩ : Fin 100000) h : S100000x2.Idx) := by
    funext a
    apply Fin.ext
    match a with
    | ⟨0, _⟩ => show win0_3.index t (0 : Fin 2) * 10000 + 1 * p.val = 10000 * t.val + p.val; rw [e0]; omega
    | ⟨1, _⟩ => show win0_3.index t (1 : Fin 2) * 2 + 1 * h.val = h.val; rw [e1]; omega
  show k0_pay1 (F := Ideal) (feat m c t) (wsrc m c t) (wdst m c t) (ix2 p h) = result m c (((cfg0.win 3).blk t).view.emb (ix2 p h))
  rw [hemb]
  show _ = half _ _ (⟨10000 * t.val + p.val, _⟩ : Fin 100000) h
  unfold half
  rcases (by decide : ∀ h : Fin 2, h = 0 ∨ h = 1) h with rfl | rfl
  · refine (pay_src (feat m c t) (wsrc m c t) (wdst m c t) p).trans (Finset.sum_congr rfl fun k _ => ?_)
    rw [feat_apply m c t p k ⟨10000 * t.val + p.val, by have := p.isLt; omega⟩ rfl, wsrc_apply m c t k]
    rfl
  · refine (pay_dst (feat m c t) (wsrc m c t) (wdst m c t) p).trans (Finset.sum_congr rfl fun k _ => ?_)
    rw [feat_apply m c t p k ⟨10000 * t.val + p.val, by have := p.isLt; omega⟩ rfl, wdst_apply m c t k]
    rfl

/-- An index of the result is in point `t`'s block iff each coordinate is in the block's range on its axis. -/
theorem mem_blk (t : Fin cfg0.N) (i : S100000x2.Idx) :
    i ∈ ((cfg0.win 3).blk t).view.set
      ↔ ∀ a : Fin 2, win0_3.index t a * S10000x2.size a ≤ (i a).val ∧ (i a).val < win0_3.index t a * S10000x2.size a + S10000x2.size a := by
  show i ∈ ((View.whole main_v6).slice (win0_3.rect t)).set ↔ _
  rw [View.set_slice_whole, Rect.mem_set_unit]
  exact Iff.rfl

/-- Every index of the result is in some point's block: row `r` in point `r / 10000`'s. -/
theorem cover (i : S100000x2.Idx) : ∃ t : Fin cfg0.N, (cfg0.win 3).flush t = true ∧ i ∈ ((cfg0.win 3).blk t).view.set := by
  have hi0 : (i 0).val < 100000 := (i 0).isLt
  have hi1 : (i 1).val < 2 := (i 1).isLt
  let t : Fin cfg0.N := ⟨(i 0).val / 10000, by rw [show cfg0.N = 10 from N_0]; omega⟩
  obtain ⟨-, -, -, -, -, -, e0, e1⟩ := idx_facts t
  refine ⟨t, flush0_3 t, ?_⟩
  rw [mem_blk]
  intro a
  have htv : t.val = (i 0).val / 10000 := rfl
  match a with
  | ⟨0, _⟩ =>
    show win0_3.index t (0 : Fin 2) * 10000 ≤ (i 0).val ∧ (i 0).val < win0_3.index t (0 : Fin 2) * 10000 + 10000
    rw [e0, htv]; omega
  | ⟨1, _⟩ =>
    show win0_3.index t (1 : Fin 2) * 2 ≤ (i 1).val ∧ (i 1).val < win0_3.index t (1 : Fin 2) * 2 + 2
    rw [e1]; omega

/-- THE ARRAY AFTER THE RUN: the result array holds `result`. -/
theorem final (c : Dev nD) : (dats m 0 c).arrAt 3 cfg0.N = result m c :=
  (dats m 0 c).arrAt_eq_of_cover 3 (result m c) (fun t _ => flushed_eq m c t) cover

end Cert.KernelIdeal.Region

end
-- ==== Proof.TailDefs.lean ====
/-
  The host operations after the region, as ONE pure function of the three buffers they read: the region's [100000, 2]
  result, the index array and the bias.

  In the program's order: the two columns of the region's result are taken apart and laid end to end as a table of
  200000 entries (source halves first, then target halves); both rows of the index array are clamped into [0, 99999], the
  second row moved up by 100000, and the two laid end to end as 1280000 positions into that table; a negative position
  would be wrapped by 200000; the table is read at every position; the first 640000 reads (source halves) and the last
  640000 (target halves) are added, the bias is added, and the sum is squashed by 1 / (1 + exp (−z)); the result is
  viewed as a [640000, 1] column.
-/
import proofs.«431094_j541165879643_3_alg».proof.Proof.Gen.KernelIdeal

noncomputable section

namespace Cert.KernelIdeal.Tail

open Idealize.ShloMosaic
open Cert.KernelIdeal Cert.KernelIdeal.Gen

variable {F : FTy → Type} [FloatOps F]

/-! ## The stages -/

/-- Column `0` of the region's result as a flat vector: every node's source half. -/
def srcHalves (P : FVec F S100000x2 .f32) : FVec F S100000 .f32 :=
  shapeCast S100000 (extractStridedSlice S100000x1 ![0, 0] P slices_S100000x2_S100000x1_0_0) shapeCasts_S100000x1_S100000

/-- Column `1`: every node's target half. -/
def dstHalves (P : FVec F S100000x2 .f32) : FVec F S100000 .f32 :=
  shapeCast S100000 (extractStridedSlice S100000x1 ![0, 1] P slices_S100000x2_S100000x1_0_1) shapeCasts_S100000x1_S100000

/-- The two laid end to end: 200000 entries. -/
def table (P : FVec F S100000x2 .f32) : FVec F S200000 .f32 :=
  concatenate S200000 0 [⟨S100000, srcHalves P⟩, ⟨S100000, dstHalves P⟩] concatenates_S100000_S100000_S200000_d0

/-- Row `0` of the index array as a flat vector: every edge's source. -/
def srcWords (e : IVec S2x640000 32) : IVec S640000 32 :=
  shapeCast S640000 (extractStridedSlice S1x640000 ![0, 0] e slices_S2x640000_S1x640000_0_0) shapeCasts_S1x640000_S640000

/-- Row `1`: every edge's target. -/
def dstWords (e : IVec S2x640000 32) : IVec S640000 32 :=
  shapeCast S640000 (extractStridedSlice S1x640000 ![1, 0] e slices_S2x640000_S1x640000_1_0) shapeCasts_S1x640000_S640000

/-- The clamp into [0, 99999]: `min 99999 (max 0 x)`, lane by lane. -/
def clamp (x : IVec S640000 32) : IVec S640000 32 :=
  minsi (broadcastInDim S640000 ![] bcast_S_S640000 (constantI S_ 32 99999#32))
    (maxsi (broadcastInDim S640000 ![] bcast_S_S640000 (constantI S_ 32 0#32)) x)

/-- The 1280000 positions into the table: clamped sources, then clamped targets moved up by 100000. -/
def positions (e : IVec S2x640000 32) : IVec S1280000 32 :=
  concatenate S1280000 0
    [⟨S640000, clamp (srcWords e)⟩,
     ⟨S640000, addi (clamp (dstWords e)) (broadcastInDim S640000 ![] bcast_S_S640000 (constantI S_ 32 100000#32))⟩]
    concatenates_S640000_S640000_S1280000_d0

/-- A negative position wrapped by the table's length (numpy's indexing), as a [1280000, 1] array of start indices. -/
def starts (e : IVec S2x640000 32) : IVec S1280000x1 32 :=
  broadcastInDim S1280000x1 ![0] bcast_S1280000_S1280000x1_0
    (select (cmpi .slt (positions e) (broadcastInDim S1280000 ![] bcast_S_S1280000 (constantI S_ 32 0#32)))
      (addi (positions e) (broadcastInDim S1280000 ![] bcast_S_S1280000 (constantI S_ 32 200000#32)))
      (positions e))

/-- The table read at every position. -/
def picked (P : FVec F S100000x2 .f32) (e : IVec S2x640000 32) : FVec F S1280000 .f32 :=
  Host.gather gather_S200000_S1280000x1_S1280000_n_0_n_n_0_1_1 (table P) (starts e)

/-- Every edge's logit: its source half plus its target half, plus the bias. -/
def logits (P : FVec F S100000x2 .f32) (e : IVec S2x640000 32) (b : FVec F S1 .f32) : FVec F S640000 .f32 :=
  addf (addf (extractStridedSlice S640000 ![0] (picked P e) slices_S1280000_S640000_0)
      (extractStridedSlice S640000 ![640000] (picked P e) slices_S1280000_S640000_640000))
    (broadcastInDim S640000 ![] bcast_S_S640000 (shapeCast S_ b shapeCasts_S1_S_))

/-- The squashed logits, as a [640000, 1] column: the program's result. -/
def tail (P : FVec F S100000x2 .f32) (e : IVec S2x640000 32) (b : FVec F S1 .f32) : FVec F S640000x1 .f32 :=
  shapeCast S640000x1
    (Host.divf (broadcastInDim S640000 ![] bcast_S_S640000 (constant S_ .f32 0x3F800000#32))
      (addf (broadcastInDim S640000 ![] bcast_S_S640000 (constant S_ .f32 0x3F800000#32))
        (Host.exp (Host.negf (logits P e b)))))
    shapeCasts_S640000_S640000x1

end Cert.KernelIdeal.Tail

end
-- ==== Proof.TailTerm.lean ====
/-
  What the frame run says the result buffer holds after the host operations that follow the region is the function
  `Tail.tail` of the region's array and of the two arguments as the region left them: the operations' results are
  composed one by one, each read at its own buffer and passed through at every other.
-/
import proofs.«431094_j541165879643_3_alg».proof.Proof.Gen.KernelIdeal.Frame
import proofs.«431094_j541165879643_3_alg».proof.Proof.TailDefs
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-! ## The frame run's tail is that function -/

/-- The rewriting loop of the operations' results without a leading simp pass: it finishes what the one-pass form leaves
    under a concatenation's pieces, where a rewrite has to go through the pieces' list. -/
macro "finish_results" : tactic =>
  `(tactic| (repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide))))

variable (m : (ℓ : Loc nD τ sig) → Buf (Elt F) ℓ)

/-- The core's buffers as the region leaves them: its arrays at what the run computed, everything else as it was. -/
abbrev left (c : Dev nD) : Valuation τ sig (Elt F) :=
  Pipeline.withArrays (cfgs 0).spec c (V0 m c) fun w => (dats m 0 c).arrAt w (cfgs 0).N

set_option maxHeartbeats 4000000 in
/-- THE TAIL: the result buffer after the host operations that follow the region. -/
theorem tail_eq (c : Dev nD) :
    Pipeline.afterTail₀ cfgs (dats m) 0 (V0 m) [hostOps1, hostOps1_1, hostOps1_2, hostOps1_3, hostOps1_4] c main_v40
      = tail (left m c (Proc.devRef .tc main_v6)) (left m c (Proc.devRef .tc main_arg1)) (left m c (Proc.devRef .tc main_arg3)) := by
  unfold Pipeline.afterTail₀
  simp only [hostOps1, hostOps1_1, hostOps1_2, hostOps1_3, hostOps1_4, List.flatten_cons, List.flatten_nil, List.append_nil,
    List.cons_append, List.nil_append]
  simp only [TRef.unary, TRef.binary]
  after_results_simp
  finish_results
  rfl

end Cert.KernelIdeal.Tail

end
-- ==== Proof.LibGather.lean ====
/-
  `stablehlo.gather` read at an index, for the two shapes `x[idx]` lowers to when the start indices come as an
  [R, 1] array (index_vector_dim = 1):

  * ROWS of a rank-2 table `x : [N, D]` — offset_dims [1], collapsed_slice_dims [0], start_index_map [0], slice sizes
    [1, D]: result element (r, d) is `x` at row `idx[r, 0]`, column `d`;
  * ENTRIES of a flat table `x : [N]` — no offset dims, collapsed_slice_dims [0], start_index_map [0], slice sizes [1]:
    result element r is `x` at `idx[r, 0]`.

  In both the start index is read as a signed integer and clamped into [0, N − 1], as StableHLO's gather clamps every
  start index so that the slice fits. The dimension numbers are abbreviations over the extents, so that a program's
  printed record, whose fields are these literals, is the abbreviation by `rfl`.
-/
import Idealize.ShloMosaic.Lib.ValueIdx

noncomputable section

namespace Cert.Lib.Gather

open Idealize.ShloMosaic Idealize.ShloMosaic.ValueIdx

variable {α : Type}

/-- Axis 1 is not in the one-element list [0] (over any rank-2 shape's axes). -/
theorem one_not_mem_zero {n : Nat} (h0 : 0 < n) (h1 : 1 < n) : ¬ (⟨1, h1⟩ : Fin n) ∈ [(⟨0, h0⟩ : Fin n)] := fun h =>
  absurd (congrArg Fin.val (List.mem_singleton.mp h)) Nat.one_ne_zero

/-! ## Rows of a rank-2 table -/

/-- The dimension numbers of a row gather: operand [N, D], start indices [R, 1], result [R, D]. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows
variable {N D R w : Nat} (wf : GatherDims.WF ⟨2, ![N, D]⟩ ⟨2, ![R, 1]⟩ ⟨2, ![R, D]⟩ [1] [0] [] [0] [] 1 ![1, D])
  (idx : IVec ⟨2, ![R, 1]⟩ w) (y : (⟨2, ![R, D]⟩ : Shape).Idx)

/-- On the table's row axis the operand index is the clamped start index: no batch, no offset. -/
theorem rows_axis0 :
    (rowDims N D R wf).start y idx (0 : Fin 2) + (rowDims N D R wf).batchCoord y (0 : Fin 2)
        + (rowDims N D R wf).offCoord y (0 : Fin 2)
      = min (idx (ix2 (y 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx y ⟨List.idxOf (0 : Fin 2) (rowDims N D R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- On the table's column axis it is the result's column: the start is 0 there (the start index map does not name
    the axis), and the axis is the one offset axis. -/
theorem rows_axis1 :
    (rowDims N D R wf).start y idx (1 : Fin 2) + (rowDims N D R wf).batchCoord y (1 : Fin 2)
        + (rowDims N D R wf).offCoord y (1 : Fin 2)
      = (y 1).val := by
  have hnm : ¬ (1 : Fin 2) ∈ ([0] : List (Fin 2)) := one_not_mem_zero (by decide) (by decide)
  have hs : (rowDims N D R wf).start y idx (1 : Fin 2) = 0 := by
    unfold GatherDims.start
    rw [dif_neg hnm]
  have hk : (1 : Fin 2) ∈ (rowDims N D R wf).sKept := (GatherDims.mem_sKept _ _).mpr ⟨hnm, List.not_mem_nil⟩
  have ho : (rowDims N D R wf).offCoord y (1 : Fin 2) = (y 1).val := by
    unfold GatherDims.offCoord
    rw [dif_pos hk]
    rfl
  rw [GatherDims.batchCoord_eq_zero _ _ _ List.not_mem_nil, hs, ho]
  omega

end Rows

/-- THE ROW GATHER READ AT (r, d): the table at the row `idx[r, 0]` names — read signed, clamped into [0, N − 1] — and
    column d. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ => exact rows_axis0 wf idx y
  | ⟨1, _⟩ => exact rows_axis1 wf idx y

/-! ## Entries of a flat table -/

/-- The dimension numbers of an entry gather: operand [N], start indices [R, 1], result [R]. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT r: the table at the position `idx[r, 0]` names — read signed, clamped into [0, N − 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (flatDims N R wf) x idx y
      = x (ix1 (⟨min (idx (ix2 (y 0) (0 : Fin 1))).toInt.toNat (N - 1), by omega⟩ : Fin N)) := by
  unfold Host.gather
  congr 1
  funext a
  obtain rfl : a = 0 := Subsingleton.elim _ _
  refine Fin.ext ?_
  show (flatDims N R wf).start y idx 0 + (flatDims N R wf).batchCoord y 0 + (flatDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx y ⟨List.idxOf (0 : Fin 1) (flatDims N R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Cert.Lib.Gather

end
-- ==== Proof.TailValue.lean ====
/-
  The host operations after the region, read at an edge: when every entry of the index array is a node id, the
  program's result at edge `r` is

      squash ((P[src r, 0] + P[dst r, 1]) + b)

  where `P` is the region's [100000, 2] result. Stage by stage: a row of the index array at lane `r`; the clamp, which
  leaves a node id alone; the position vector's two halves (the source's id; the target's id moved up by 100000,
  without overflow); the wrap of a negative position, never taken; the 200000-entry table's two halves (column 0, then
  column 1 of `P`); the gather, whose own clamp into [0, 199999] leaves these positions alone; the two slices of the
  gathered vector; the bias broadcast from its one entry.
-/
import proofs.«431094_j541165879643_3_alg».proof.Proof.TailDefs
import proofs.«431094_j541165879643_3_alg».proof.Proof.Spec
import proofs.«431094_j541165879643_3_alg».proof.Proof.LibGather
import Idealize.ShloMosaic.Lib.Pipeline.Value
import Idealize.ShloMosaic.Lib.ValueIdx

set_option maxRecDepth 16384

noncomputable section

namespace Cert.KernelIdeal.Tail

open Idealize.ShloMosaic Idealize.ShloMosaic.ValueIdx
open Cert.KernelIdeal Cert.KernelIdeal.Gen Cert.EdgeScore Cert.Lib.Gather

variable {F : FTy → Type} [FloatOps F]

/-! ## The index array's rows, clamped and laid end to end -/

theorem srcWords_apply (e : IVec S2x640000 32) (r : Fin 640000) : srcWords e (ix1 r) = e (ix2 (0 : Fin 2) r) := by
  unfold srcWords
  refine (shapeCast_apply _ shapeCasts_S1x640000_S640000 (ix1 r : S640000.Idx) (ix2 (0 : Fin 1) r : S1x640000.Idx) ?_).trans ?_
  · rw [Shape.rowMajor_val_one, Shape.rowMajor_val_two]
    show 0 * 640000 + r.val = r.val
    omega
  refine extractStridedSlice_apply _ e slices_S2x640000_S1x640000_0_0 (ix2 (0 : Fin 1) r : S1x640000.Idx) (ix2 (0 : Fin 2) r : S2x640000.Idx) fun a => ?_
  match a with
  | ⟨0, _⟩ => rfl
  | ⟨1, _⟩ => show r.val = 0 + r.val; omega

theorem dstWords_apply (e : IVec S2x640000 32) (r : Fin 640000) : dstWords e (ix1 r) = e (ix2 (1 : Fin 2) r) := by
  unfold dstWords
  refine (shapeCast_apply _ shapeCasts_S1x640000_S640000 (ix1 r : S640000.Idx) (ix2 (0 : Fin 1) r : S1x640000.Idx) ?_).trans ?_
  · rw [Shape.rowMajor_val_one, Shape.rowMajor_val_two]
    show 0 * 640000 + r.val = r.val
    omega
  refine extractStridedSlice_apply _ e slices_S2x640000_S1x640000_1_0 (ix2 (0 : Fin 1) r : S1x640000.Idx) (ix2 (1 : Fin 2) r : S2x640000.Idx) fun a => ?_
  match a with
  | ⟨0, _⟩ => rfl
  | ⟨1, _⟩ => show r.val = 0 + r.val; omega

/-- The clamp at a lane is the clamp of the word there. -/
theorem clamp_apply (x : IVec S640000 32) (r : Fin 640000) :
    clamp x (ix1 r) = IntOp.minsi 99999#32 (IntOp.maxsi 0#32 (x (ix1 r))) := rfl

/-- The first 640000 positions are the clamped sources. -/
theorem positions_src (e : IVec S2x640000 32) (r : Fin 640000) :
    positions e (ix1 (⟨r.val, by have := r.isLt; omega⟩ : Fin 1280000)) = clamp (srcWords e) (ix1 r) := by
  unfold positions
  refine concatenate_pair_apply_left (t := S1280000) (s₁ := S640000) (s₂ := S640000) (0 : Fin 1) _ _
    concatenates_S640000_S640000_S1280000_d0 (ix1 (⟨r.val, by have := r.isLt; omega⟩ : Fin 1280000) : S1280000.Idx) rfl
    (ix1 r : S640000.Idx) fun b => ?_
  match b with
  | ⟨0, _⟩ => rfl

/-- The last 640000 are the clamped targets moved up by 100000. -/
theorem positions_dst (e : IVec S2x640000 32) (r : Fin 640000) :
    positions e (ix1 (⟨640000 + r.val, by have := r.isLt; omega⟩ : Fin 1280000))
      = IntOp.addi (clamp (dstWords e) (ix1 r)) 100000#32 := by
  unfold positions
  refine (concatenate_pair_apply_right (t := S1280000) (s₁ := S640000) (s₂ := S640000) (0 : Fin 1) _ _
    concatenates_S640000_S640000_S1280000_d0 (ix1 (⟨640000 + r.val, by have := r.isLt; omega⟩ : Fin 1280000) : S1280000.Idx) rfl rfl
    (ix1 r : S640000.Idx) ?_ ?_).trans rfl
  · intro b hb
    match b with
    | ⟨0, _⟩ => exact absurd rfl hb
  · show r.val + 640000 = 640000 + r.val
    omega

/-- The start index at position `q`: the position, wrapped by 200000 if negative. -/
theorem starts_apply (e : IVec S2x640000 32) (q : Fin 1280000) :
    starts e (ix2 q (0 : Fin 1))
      = Scalar.select (IntOp.cmpi .slt (positions e (ix1 q)) 0#32) (IntOp.addi (positions e (ix1 q)) 200000#32) (positions e (ix1 q)) := by
  unfold starts
  refine (broadcastInDim_apply _ bcast_S1280000_S1280000x1_0 _ (ix2 q (0 : Fin 1) : S1280000x1.Idx) (ix1 q : S1280000.Idx) ?_).trans rfl
  intro a
  match a with
  | ⟨0, _⟩ => show q.val = if (1280000 : Nat) = 1 then 0 else q.val; rw [if_neg (by decide)]

/-! ## The table -/

theorem srcHalves_apply (P : FVec F S100000x2 .f32) (n : Fin 100000) : srcHalves P (ix1 n) = P (ix2 n (0 : Fin 2)) := by
  unfold srcHalves
  refine (shapeCast_apply _ shapeCasts_S100000x1_S100000 (ix1 n : S100000.Idx) (ix2 n (0 : Fin 1) : S100000x1.Idx) ?_).trans ?_
  · rw [Shape.rowMajor_val_one, Shape.rowMajor_val_two]
    show n.val * 1 + 0 = n.val
    omega
  refine extractStridedSlice_apply _ P slices_S100000x2_S100000x1_0_0 (ix2 n (0 : Fin 1) : S100000x1.Idx) (ix2 n (0 : Fin 2) : S100000x2.Idx) fun a => ?_
  match a with
  | ⟨0, _⟩ => show n.val = 0 + n.val; omega
  | ⟨1, _⟩ => rfl

theorem dstHalves_apply (P : FVec F S100000x2 .f32) (n : Fin 100000) : dstHalves P (ix1 n) = P (ix2 n (1 : Fin 2)) := by
  unfold dstHalves
  refine (shapeCast_apply _ shapeCasts_S100000x1_S100000 (ix1 n : S100000.Idx) (ix2 n (0 : Fin 1) : S100000x1.Idx) ?_).trans ?_
  · rw [Shape.rowMajor_val_one, Shape.rowMajor_val_two]
    show n.val * 1 + 0 = n.val
    omega
  refine extractStridedSlice_apply _ P slices_S100000x2_S100000x1_0_1 (ix2 n (0 : Fin 1) : S100000x1.Idx) (ix2 n (1 : Fin 2) : S100000x2.Idx) fun a => ?_
  match a with
  | ⟨0, _⟩ => show n.val = 0 + n.val; omega
  | ⟨1, _⟩ => rfl

/-- Entry `n` of the table is node `n`'s source half. -/
theorem table_src (P : FVec F S100000x2 .f32) (n : Fin 100000) :
    table P (ix1 (⟨n.val, by have := n.isLt; omega⟩ : Fin 200000)) = P (ix2 n (0 : Fin 2)) := by
  unfold table
  refine (concatenate_pair_apply_left (t := S200000) (s₁ := S100000) (s₂ := S100000) (0 : Fin 1) _ _
    concatenates_S100000_S100000_S200000_d0 (ix1 (⟨n.val, by have := n.isLt; omega⟩ : Fin 200000) : S200000.Idx) rfl
    (ix1 n : S100000.Idx) fun b => ?_).trans (srcHalves_apply P n)
  match b with
  | ⟨0, _⟩ => rfl

/-- Entry `100000 + n` is node `n`'s target half. -/
theorem table_dst (P : FVec F S100000x2 .f32) (n : Fin 100000) :
    table P (ix1 (⟨100000 + n.val, by have := n.isLt; omega⟩ : Fin 200000)) = P (ix2 n (1 : Fin 2)) := by
  unfold table
  refine (concatenate_pair_apply_right (t := S200000) (s₁ := S100000) (s₂ := S100000) (0 : Fin 1) _ _
    concatenates_S100000_S100000_S200000_d0 (ix1 (⟨100000 + n.val, by have := n.isLt; omega⟩ : Fin 200000) : S200000.Idx) rfl rfl
    (ix1 n : S100000.Idx) ?_ ?_).trans (dstHalves_apply P n)
  · intro b hb
    match b with
    | ⟨0, _⟩ => exact absurd rfl hb
  · show n.val + 100000 = 100000 + n.val
    omega

/-! ## The gather -/

/-- The printed dimension numbers are the entry gather's. -/
theorem dims_eq : gather_S200000_S1280000x1_S1280000_n_0_n_n_0_1_1
    = flatDims 200000 1280000 gather_S200000_S1280000x1_S1280000_n_0_n_n_0_1_1_wf := rfl

/-- The gathered vector at position `q`: the table at the start index there, read signed and clamped into [0, 199999]. -/
theorem picked_apply (P : FVec F S100000x2 .f32) (e : IVec S2x640000 32) (q : Fin 1280000) :
    picked P e (ix1 q)
      = table P (ix1 (⟨min (starts e (ix2 q (0 : Fin 1))).toInt.toNat (200000 - 1), by omega⟩ : Fin 200000)) := by
  unfold picked
  rw [dims_eq]
  exact gather_flat_apply (by decide) _ (table P) (starts e) (ix1 q)

/-! From here on the stages are read only through the lemmas above. -/
attribute [local irreducible] picked starts positions table clamp srcWords dstWords srcHalves dstHalves

/-- The start index at a source position whose word is a node id is that word: clamped and wrapped to itself. -/
theorem start_src (e : IVec S2x640000 32) (r : Fin 640000) (hn : IsNode (e (ix2 (0 : Fin 2) r))) :
    starts e (ix2 (⟨r.val, by have := r.isLt; omega⟩ : Fin 1280000) (0 : Fin 1)) = e (ix2 (0 : Fin 2) r) := by
  refine (starts_apply e _).trans ?_
  rw [positions_src e r, clamp_apply, srcWords_apply, clip_eq hn]
  exact wrap_eq hn.1

/-- At a target position it is the word moved up by 100000: no overflow, so still non-negative and not wrapped. -/
theorem start_dst (e : IVec S2x640000 32) (r : Fin 640000) (hn : IsNode (e (ix2 (1 : Fin 2) r))) :
    starts e (ix2 (⟨640000 + r.val, by have := r.isLt; omega⟩ : Fin 1280000) (0 : Fin 1))
      = IntOp.addi (e (ix2 (1 : Fin 2) r)) 100000#32 := by
  refine (starts_apply e _).trans ?_
  rw [positions_dst e r, clamp_apply, dstWords_apply, clip_eq hn]
  have hs := shift_toInt hn
  obtain ⟨h0, h1⟩ := hn
  exact wrap_eq (by rw [hs]; omega)

/-- At a source position whose word is a node id, the gather reads that node's source half. -/
theorem picked_src (P : FVec F S100000x2 .f32) (e : IVec S2x640000 32) (r : Fin 640000) (hn : IsNode (e (ix2 (0 : Fin 2) r))) :
    picked P e (ix1 (⟨r.val, by have := r.isLt; omega⟩ : Fin 1280000)) = P (ix2 (node (e (ix2 (0 : Fin 2) r))) (0 : Fin 2)) := by
  refine (picked_apply P e _).trans ?_
  refine Eq.trans (congrArg (table P) (congrArg ix1 (Fin.ext ?_))) (table_src P (node (e (ix2 (0 : Fin 2) r))))
  show min (starts e (ix2 (⟨r.val, _⟩ : Fin 1280000) (0 : Fin 1))).toInt.toNat (200000 - 1) = (node (e (ix2 (0 : Fin 2) r))).val
  rw [start_src e r hn, node_val hn]
  obtain ⟨h0, h1⟩ := hn
  omega

/-- At a target position whose word is a node id, it reads that node's target half. -/
theorem picked_dst (P : FVec F S100000x2 .f32) (e : IVec S2x640000 32) (r : Fin 640000) (hn : IsNode (e (ix2 (1 : Fin 2) r))) :
    picked P e (ix1 (⟨640000 + r.val, by have := r.isLt; omega⟩ : Fin 1280000)) = P (ix2 (node (e (ix2 (1 : Fin 2) r))) (1 : Fin 2)) := by
  refine (picked_apply P e _).trans ?_
  refine Eq.trans (congrArg (table P) (congrArg ix1 (Fin.ext ?_))) (table_dst P (node (e (ix2 (1 : Fin 2) r))))
  show min (starts e (ix2 (⟨640000 + r.val, _⟩ : Fin 1280000) (0 : Fin 1))).toInt.toNat (200000 - 1)
    = 100000 + (node (e (ix2 (1 : Fin 2) r))).val
  rw [start_dst e r hn, shift_toInt hn, node_val hn]
  obtain ⟨h0, h1⟩ := hn
  omega

/-! ## The logits and the result -/

/-- The bias, reshaped to a scalar and broadcast over the edges, is its one entry at every edge. -/
theorem bias_apply (b : FVec F S1 .f32) (r : Fin 640000) :
    broadcastInDim S640000 ![] bcast_S_S640000 (shapeCast S_ b shapeCasts_S1_S_) (ix1 r) = b (ix1 (0 : Fin 1)) := by
  refine (broadcastInDim_apply _ bcast_S_S640000 _ (ix1 r : S640000.Idx) (ix0 : S_.Idx) (fun a => a.elim0)).trans ?_
  refine shapeCast_apply b shapeCasts_S1_S_ (ix0 : S_.Idx) (ix1 (0 : Fin 1) : S1.Idx) ?_
  rw [Shape.rowMajor_val_one]
  have hlt := (S_.rowMajor ix0).isLt
  have hnum : S_.numel = 1 := by decide
  show 0 = (S_.rowMajor ix0).val
  omega

/-- An edge's logit, when both its words are node ids. -/
theorem logits_apply (P : FVec F S100000x2 .f32) (e : IVec S2x640000 32) (b : FVec F S1 .f32) (r : Fin 640000)
    (hs : IsNode (e (ix2 (0 : Fin 2) r))) (hd : IsNode (e (ix2 (1 : Fin 2) r))) :
    logits P e b (ix1 r)
      = FloatOps.addf (FloatOps.addf (P (ix2 (node (e (ix2 (0 : Fin 2) r))) (0 : Fin 2))) (P (ix2 (node (e (ix2 (1 : Fin 2) r))) (1 : Fin 2))))
          (b (ix1 (0 : Fin 1))) := by
  have e0 : extractStridedSlice S640000 ![0] (picked P e) slices_S1280000_S640000_0 (ix1 r)
      = picked P e (ix1 (⟨r.val, by have := r.isLt; omega⟩ : Fin 1280000)) :=
    extractStridedSlice_apply _ (picked P e) slices_S1280000_S640000_0 (ix1 r : S640000.Idx) (ix1 (⟨r.val, by have := r.isLt; omega⟩ : Fin 1280000) : S1280000.Idx)
      fun a => match a with
        | ⟨0, _⟩ => by show r.val = 0 + r.val; omega
  have e1 : extractStridedSlice S640000 ![640000] (picked P e) slices_S1280000_S640000_640000 (ix1 r)
      = picked P e (ix1 (⟨640000 + r.val, by have := r.isLt; omega⟩ : Fin 1280000)) :=
    extractStridedSlice_apply _ (picked P e) slices_S1280000_S640000_640000 (ix1 r : S640000.Idx) (ix1 (⟨640000 + r.val, by have := r.isLt; omega⟩ : Fin 1280000) : S1280000.Idx)
      fun a => match a with
        | ⟨0, _⟩ => rfl
  show FloatOps.addf (FloatOps.addf (extractStridedSlice S640000 ![0] (picked P e) slices_S1280000_S640000_0 (ix1 r))
      (extractStridedSlice S640000 ![640000] (picked P e) slices_S1280000_S640000_640000 (ix1 r)))
    (broadcastInDim S640000 ![] bcast_S_S640000 (shapeCast S_ b shapeCasts_S1_S_) (ix1 r)) = _
  rw [e0, e1, picked_src P e r hs, picked_dst P e r hd, bias_apply]

/-- THE RESULT AT AN EDGE, over the extended reals. -/
theorem tail_apply (P : FVec Ideal S100000x2 .f32) (e : IVec S2x640000 32) (b : FVec Ideal S1 .f32) (hn : ∀ j, IsNode (e j))
    (i : S640000x1.Idx) :
    tail (F := Ideal) P e b i
      = squash (FloatOps.addf (F := Ideal) (φ := .f32)
          (FloatOps.addf (F := Ideal) (φ := .f32) (P (ix2 (node (e (ix2 (0 : Fin 2) (i 0)))) (0 : Fin 2)))
            (P (ix2 (node (e (ix2 (1 : Fin 2) (i 0)))) (1 : Fin 2))))
          (b (ix1 (0 : Fin 1)))) := by
  obtain ⟨r, z, rfl⟩ : ∃ (r : Fin 640000) (z : Fin 1), i = ix2 r z := ⟨i 0, i 1, eq_ix2 i⟩
  unfold tail
  refine (shapeCast_apply _ shapeCasts_S640000_S640000x1 (ix2 r z : S640000x1.Idx) (ix1 r : S640000.Idx) ?_).trans ?_
  · rw [Shape.rowMajor_val_one, Shape.rowMajor_val_two]
    have hz := z.isLt
    show r.val = r.val * 1 + z.val
    omega
  show FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) (logits (F := Ideal) P e b (ix1 r))))) = _
  rw [logits_apply P e b r (hn _) (hn _)]
  rfl

end Cert.KernelIdeal.Tail

end
-- ==== Proof.KernelValue.lean ====
/-
  The idealized kernel's run, read: its result buffer ends at the score of every edge, its arguments unchanged.

  The frame run leaves the region's result array at both halves of every node (`Region.final`) and every other buffer
  as it was, so the host operations that follow read that table, the index array and the bias as launched; their
  composed function (`Tail.tail_eq`), read at an edge whose two words are node ids (`Tail.tail_apply`), is the edge's
  score.
-/
import proofs.«431094_j541165879643_3_alg».proof.Proof.Gen.KernelIdeal.Frame
import proofs.«431094_j541165879643_3_alg».proof.Proof.Spec
import proofs.«431094_j541165879643_3_alg».proof.Proof.Region
import proofs.«431094_j541165879643_3_alg».proof.Proof.TailTerm
import proofs.«431094_j541165879643_3_alg».proof.Proof.TailValue

set_option maxRecDepth 16384

noncomputable section

namespace Cert.KernelIdeal.Edge

open Idealize.ShloMosaic Idealize.ShloMosaic.TcCoe Idealize.SL.Sem
open Idealize.ShloMosaic.ValueIdx
open Cert.KernelIdeal Cert.KernelIdeal.Gen Cert.EdgeScore

variable (m : (ℓ : Loc nD τ sig) → Buf (Elt Ideal) ℓ) (ρ : Dev nD → PrngReg)

/-- After the region its result array holds both halves of every node. -/
theorem left_result (c : Dev nD) : Tail.left m c (Proc.devRef .tc main_v6) = Region.result m c :=
  (Pipeline.withArrays_arr spec0 launch0.win.arr_inj c _ _ (3 : Fin 4)).trans (Region.final m c)

/-- The index array is no array of the pipeline and no host operation before the region writes it: as launched. -/
theorem left_arg1 (c : Dev nD) : Tail.left m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

/-- Nor the bias. -/
theorem left_arg3 (c : Dev nD) : Tail.left m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- The result buffer after the whole program: the score of every edge. -/
theorem result_eq (c : Dev nD) (hn : ∀ j, IsNode ((m ((c : Thread nD τ).loc main_arg1) : S2x640000.Idx → BitVec 32) j)) :
    Pipeline.afterTail₀ cfgs (dats m) 0 (V0 m) [hostOps1, hostOps1_1, hostOps1_2, hostOps1_3, hostOps1_4] c main_v40
      = score (m ((c : Thread nD τ).loc main_arg0)) (m ((c : Thread nD τ).loc main_arg1)) (m ((c : Thread nD τ).loc main_arg2))
          (m ((c : Thread nD τ).loc main_arg3)) := by
  rw [Tail.tail_eq, left_result, left_arg1, left_arg3]
  funext i
  rw [Tail.tail_apply _ _ _ hn i]
  rfl

/-- THE RUN, READ: every weakly fair execution terminates with the result buffer at the score of every edge and the
    arguments unchanged, when the index array holds node ids. -/
theorem run (hn : ∀ (c : Dev nD) j, IsNode ((m ((c : Thread nD τ).loc main_arg1) : S2x640000.Idx → BitVec 32) j)) :
    θ_run defs (onTc (τ := τ) (main (F := Ideal))) ⟨m, fun _ => 0, ρ⟩ (fun r => ∀ c : Dev nD,
      r.2.mem ((c.tc : Thread nD τ).loc main_v40)
          = score (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v40 (Pipeline.mem_restRefs_of main_v40 (by decide) (by decide))).trans (result_eq m c (hn c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Edge

end
-- ==== Proof.RefValue.lean ====
/-
  The reference, read at an edge: when every entry of the index array is a node id, its result is `EdgeScore.score`.

  It takes each row of the index array, wraps a negative entry by 100000 (never taken on a node id), gathers the rows of
  the feature table those entries name (the gather's own clamp into [0, 99999] leaves a node id alone), contracts each
  gathered row with its half of the weight's column — a sum of 128 products —, adds the two, adds the bias and squashes.
-/
import proofs.«431094_j541165879643_3_alg».proof.Proof.Gen.ReferenceIdeal.Read
import proofs.«431094_j541165879643_3_alg».proof.Proof.Spec
import proofs.«431094_j541165879643_3_alg».proof.Proof.LibGather

set_option maxRecDepth 16384

noncomputable section

open scoped BigOperators

namespace Cert.ReferenceIdeal.Edge

open Idealize.ShloMosaic Idealize.ShloMosaic.ValueIdx
open Cert.ReferenceIdeal Cert.ReferenceIdeal.Read Cert.EdgeScore Cert.Lib.Gather

/-! ## The start indices -/

/-- The start index of edge `r`'s source row is its source word. -/
theorem srcStart (x1 : IVec S2x640000 32) (r : Fin 640000) (hn : IsNode (x1 (ix2 (0 : Fin 2) r))) :
    val_main_v7 (F := Ideal) x1 (ix2 r (0 : Fin 1)) = x1 (ix2 (0 : Fin 2) r) := by
  have hi : idx_main_v0 (idx_main_v1 (idx_main_v7 (ix2 r (0 : Fin 1)))) = (ix2 (0 : Fin 2) r : S2x640000.Idx) := by
    funext a
    apply Fin.ext
    match a with
    | ⟨0, _⟩ => rfl
    | ⟨1, _⟩ => show r.val % 640000 = r.val; exact Nat.mod_eq_of_lt r.isLt
  rw [val_main_v7_apply, val_main_v6_apply, val_main_v3_apply, val_main_v5_apply, val_main_v2_apply, val_main_c_apply,
    val_main_v4_apply, val_main_c_0_apply, val_main_v1_apply, val_main_v0_apply, hi]
  exact wrap_eq hn.1

/-- And of its target row, its target word. -/
theorem dstStart (x1 : IVec S2x640000 32) (r : Fin 640000) (hn : IsNode (x1 (ix2 (1 : Fin 2) r))) :
    val_main_v16 (F := Ideal) x1 (ix2 r (0 : Fin 1)) = x1 (ix2 (1 : Fin 2) r) := by
  have hi : idx_main_v9 (idx_main_v10 (idx_main_v16 (ix2 r (0 : Fin 1)))) = (ix2 (1 : Fin 2) r : S2x640000.Idx) := by
    funext a
    apply Fin.ext
    match a with
    | ⟨0, _⟩ => rfl
    | ⟨1, _⟩ => show r.val % 640000 = r.val; exact Nat.mod_eq_of_lt r.isLt
  rw [val_main_v16_apply, val_main_v15_apply, val_main_v12_apply, val_main_v14_apply, val_main_v11_apply, val_main_c_1_apply,
    val_main_v13_apply, val_main_c_2_apply, val_main_v10_apply, val_main_v9_apply, hi]
  exact wrap_eq hn.1

/-! ## The gathered rows -/

/-- The printed dimension numbers are the row gather's. -/
theorem dims_eq : gather_S100000x128_S640000x1_S640000x128_1_0_n_n_0_1_1128
    = rowDims 100000 128 640000 Facts₀.gather_S100000x128_S640000x1_S640000x128_1_0_n_n_0_1_1128_wf := rfl

/-- Edge `r`'s gathered source row at lane `k` is its source node's feature `k`. -/
theorem srcRow (x0 : FVec Ideal S100000x128 .f32) (x1 : IVec S2x640000 32) (r : Fin 640000) (k : Fin 128)
    (hn : IsNode (x1 (ix2 (0 : Fin 2) r))) :
    val_main_v8 (F := Ideal) x0 x1 (ix2 r k) = x0 (ix2 (node (x1 (ix2 (0 : Fin 2) r))) k) := by
  unfold val_main_v8
  rw [dims_eq]
  refine (gather_rows_apply (by decide) _ x0 (val_main_v7 (F := Ideal) x1) (ix2 r k)).trans ?_
  refine congrArg x0 (congrArg (fun n : Fin 100000 => (ix2 n k : S100000x128.Idx)) (Fin.ext ?_))
  show min (val_main_v7 (F := Ideal) x1 (ix2 r (0 : Fin 1))).toInt.toNat (100000 - 1) = (node (x1 (ix2 (0 : Fin 2) r))).val
  rw [srcStart x1 r hn]
  rfl

/-- Its gathered target row, its target node's. -/
theorem dstRow (x0 : FVec Ideal S100000x128 .f32) (x1 : IVec S2x640000 32) (r : Fin 640000) (k : Fin 128)
    (hn : IsNode (x1 (ix2 (1 : Fin 2) r))) :
    val_main_v17 (F := Ideal) x0 x1 (ix2 r k) = x0 (ix2 (node (x1 (ix2 (1 : Fin 2) r))) k) := by
  unfold val_main_v17
  rw [dims_eq]
  refine (gather_rows_apply (by decide) _ x0 (val_main_v16 (F := Ideal) x1) (ix2 r k)).trans ?_
  refine congrArg x0 (congrArg (fun n : Fin 100000 => (ix2 n k : S100000x128.Idx)) (Fin.ext ?_))
  show min (val_main_v16 (F := Ideal) x1 (ix2 r (0 : Fin 1))).toInt.toNat (100000 - 1) = (node (x1 (ix2 (1 : Fin 2) r))).val
  rw [dstStart x1 r hn]
  rfl

/-! ## The result -/

/-- THE REFERENCE'S RESULT is the score of every edge. -/
theorem ref_eq (x0 : FVec Ideal S100000x128 .f32) (x1 : IVec S2x640000 32) (x2 : FVec Ideal S256x1 .f32) (x3 : FVec Ideal S1 .f32)
    (hn : ∀ j, IsNode (x1 j)) :
    val_main_v31 (F := Ideal) x0 x1 x2 x3 = score x0 x1 x2 x3 := by
  funext i
  obtain ⟨r, z, rfl⟩ : ∃ (r : Fin 640000) (z : Fin 1), i = ix2 r z := ⟨i 0, i 1, eq_ix2 i⟩
  obtain rfl : z = 0 := Subsingleton.elim _ _
  rw [val_main_v31_apply, val_main_v30_apply, val_main_cst_3_apply, val_main_v29_apply, val_main_v28_apply, val_main_cst_apply,
    val_main_v27_apply, val_main_v26_apply, val_main_v25_apply, val_main_v24_apply, val_main_v23_apply, val_main_v22_apply,
    val_main_v19_apply, val_main_v21_apply]
  have hs : ∑ k : Fin 128, val_main_v8 (F := Ideal) x0 x1 (lidx_main_v19 (ix2 r (0 : Fin 1)) k)
        * val_main_v18 (F := Ideal) x2 (ridx_main_v19 (ix2 r (0 : Fin 1)) k)
      = half x0 x2 (node (x1 (ix2 (0 : Fin 2) r))) 0 := by
    unfold half
    refine Finset.sum_congr rfl fun k _ => ?_
    have hl : lidx_main_v19 (ix2 r (0 : Fin 1)) k = (ix2 r k : S640000x128.Idx) :=
      funext fun a => Fin.ext (by
        match a with
        | ⟨0, _⟩ => rfl
        | ⟨1, _⟩ => rfl)
    rw [hl, srcRow x0 x1 r k (hn _), val_main_v18_apply]
    refine congrArg _ (congrArg x2 ?_)
    funext a
    apply Fin.ext
    match a with
    | ⟨0, _⟩ => show k.val = 128 * 0 + k.val; omega
    | ⟨1, _⟩ => rfl
  have hd : ∑ k : Fin 128, val_main_v17 (F := Ideal) x0 x1 (lidx_main_v21 (ix2 r (0 : Fin 1)) k)
        * val_main_v20 (F := Ideal) x2 (ridx_main_v21 (ix2 r (0 : Fin 1)) k)
      = half x0 x2 (node (x1 (ix2 (1 : Fin 2) r))) 1 := by
    unfold half
    refine Finset.sum_congr rfl fun k _ => ?_
    have hl : lidx_main_v21 (ix2 r (0 : Fin 1)) k = (ix2 r k : S640000x128.Idx) :=
      funext fun a => Fin.ext (by
        match a with
        | ⟨0, _⟩ => rfl
        | ⟨1, _⟩ => rfl)
    rw [hl, dstRow x0 x1 r k (hn _), val_main_v20_apply]
    refine congrArg _ (congrArg x2 ?_)
    funext a
    apply Fin.ext
    match a with
    | ⟨0, _⟩ => show 128 + k.val = 128 * 1 + k.val; omega
    | ⟨1, _⟩ => rfl
  have hb : idx_main_v23 (idx_main_v24 (ix2 r (0 : Fin 1))) = (ix1 (0 : Fin 1) : S1.Idx) :=
    funext fun a => Fin.ext (by
      match a with
      | ⟨0, _⟩ => rfl)
  rw [hs, hd, hb]
  rfl

end Cert.ReferenceIdeal.Edge

end
-- ==== Proof.lean ====
/-
  A graph's edges are scored from its nodes' features: for edge `r` with source node `s` and target node `t`,

      score r = squash ((x[s] · W[0:128] + x[t] · W[128:256]) + b),      squash z = 1 / (1 + exp (−z)),

  `x : [100000, 128]` the node features, `W : [256, 1]` the weight, `b` the bias, `edge_index : [2, 640000]` the edges'
  source ids (row 0) and target ids (row 1).

  The reference gathers the two feature rows of every edge and contracts each with its half of `W`. The kernel
  contracts EVERY node's features with both halves of `W` once, in a pipelined region over ten blocks of 10000 nodes —
  a [100000, 2] table of half-logits — and the host then picks, per edge, the source's first column and the target's
  second out of that table (laid out flat, the second column after the first) and adds them. Over the extended reals
  the two are the same sums of the same 128 products, added in the same grouping, so the results are equal entry by
  entry: `algebraic`. Nothing of the arithmetic needs the inputs finite.

  What the two programs do with an index that is NOT a node id differs (the reference wraps a negative index from the
  end of the table as numpy does, the kernel clamps it to node 0), so the claim is stated for index arrays whose entries
  are node ids, in [0, 100000): the precondition's last two conjuncts, decoded in Proof/PreRange.lean.

  The modules: Proof/Spec.lean (the score, and what the programs' index arithmetic does to a node id),
  Proof/LibGather.lean (a gather read at an index), Proof/PreRange.lean (the precondition decoded),
  Proof/Region.lean (the region's result array), Proof/TailDefs.lean, Proof/TailTerm.lean and Proof/TailValue.lean (the
  host operations after the region, as one function, and read at an edge), Proof/KernelValue.lean (the kernel's run,
  read), Proof/RefValue.lean (the reference, read at an edge). The frames of the two kernel programs and the reference's
  run are the generated ones.
-/
import proofs.«431094_j541165879643_3_alg».proof.Defs
import proofs.«431094_j541165879643_3_alg».proof.Proof.Gen.Kernel
import proofs.«431094_j541165879643_3_alg».proof.Proof.Gen.Kernel.Skeleton
import proofs.«431094_j541165879643_3_alg».proof.Proof.Gen.Kernel.Launch
import proofs.«431094_j541165879643_3_alg».proof.Proof.Gen.Kernel.Points
import proofs.«431094_j541165879643_3_alg».proof.Proof.Gen.Kernel.Frame
import proofs.«431094_j541165879643_3_alg».proof.Proof.Gen.KernelIdeal
import proofs.«431094_j541165879643_3_alg».proof.Proof.Gen.KernelIdeal.Skeleton
import proofs.«431094_j541165879643_3_alg».proof.Proof.Gen.KernelIdeal.Launch
import proofs.«431094_j541165879643_3_alg».proof.Proof.Gen.KernelIdeal.Points
import proofs.«431094_j541165879643_3_alg».proof.Proof.Gen.KernelIdeal.Frame
import proofs.«431094_j541165879643_3_alg».proof.Proof.Gen.ReferenceIdeal
import proofs.«431094_j541165879643_3_alg».proof.Proof.Gen.Pre_finite_inputs
import proofs.«431094_j541165879643_3_alg».proof.Proof.Gen.ReferenceIdeal.Run
import proofs.«431094_j541165879643_3_alg».proof.Proof.Gen.ReferenceIdeal.Read
import proofs.«431094_j541165879643_3_alg».proof.Proof.PreRange
import proofs.«431094_j541165879643_3_alg».proof.Proof.KernelValue
import proofs.«431094_j541165879643_3_alg».proof.Proof.RefValue
import Idealize.ShloMosaic.Adequacy
import Idealize.ShloMosaic.Init

noncomputable section

namespace Cert.Proof

open Idealize.ShloMosaic Idealize.SL.Sem Cert.EdgeScore

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the score of every edge. -/
theorem algebraic : Cert.algebraic_KernelIdeal_ReferenceIdeal := by
  intro m ρ m' ρ' hpre hagree
  have hn : ∀ (c : Dev Cert.KernelIdeal.nD) j,
      IsNode ((m ((c.tc : Thread Cert.KernelIdeal.nD Cert.KernelIdeal.τ).loc Cert.KernelIdeal.main_arg1)
        : Cert.KernelIdeal.S2x640000.Idx → BitVec 32) j) :=
    fun c j => isNode_of_pre _ _ _ _ (hpre c) j
  refine ⟨fun c => score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Edge.run m ρ hn, ?_⟩
  refine (θ_run Cert.ReferenceIdeal.defs _ _).mono (fun _ h c =>
      ⟨(h c).1.trans ((Cert.ReferenceIdeal.Read.val_main_v31_eq _ _ _ _).trans ?_), (h c).2⟩)
    (Cert.ReferenceIdeal.Value.run (F := Ideal) m' ρ')
  rw [(hagree c).1, (hagree c).2.1, (hagree c).2.2.1, (hagree c).2.2.2]
  exact Cert.ReferenceIdeal.Edge.ref_eq _ _ _ _ (hn c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
